-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4096 .f32 .bf16
  ∧ IdealRules.truncf_extf.Statement Cert.KernelIdeal.S4096 .f32 .bf16
  ∧ IdealRules.truncf_extf.Statement Cert.KernelIdeal.S4096 .f32 .bf16
  ∧ IdealRules.truncf_extf.Statement Cert.KernelIdeal.S4096 .f32 .bf16
  ∧ IdealRules.truncf_extf.Statement Cert.KernelIdeal.S4096 .f32 .bf16
  ∧ IdealRules.truncf_extf.Statement Cert.KernelIdeal.S4096 .f32 .bf16
  ∧ IdealRules.truncf_extf.Statement Cert.KernelIdeal.S4096 .f32 .bf16
  ∧ IdealRules.truncf_extf.Statement Cert.KernelIdeal.S4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x4096 : Shape := ⟨2, ![8192, 4096]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192 .f32) (main_arg1 : FVec F S8192x4096 .f32) (main_arg2 : IVec S8192x4096 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_c_2 : IVec S_ 32 := constantI S_ 32 0#32
  let main_v9 : IVec S8192x4096 32 := broadcastInDim S8192x4096 ![] bcast_S_S8192x4096 main_c_2
  let main_v10 : IVec S8192x4096 1 := cmpi .sge main_arg2 main_v9
  let main_c_3 : IVec S_ 1 := constantI S_ 1 1#1
  let main_v11 : IVec S_ 1 := (fun x v => Host.reduce IntOp.andi x v reducesTo_S8192x4096_S_d0_1 h_S_) main_v10 main_c_3
  let main_v12 : IVec S_ 1 := andi main_v8 main_v11
  main_v12
-- ==== Kernel.lean ====
abbrev S8192 : Shape := ⟨1, ![8192]⟩
abbrev S8192x4096 : Shape := ⟨2, ![8192, 4096]⟩
abbrev S8192x1 : Shape := ⟨2, ![8192, 1]⟩
abbrev S2x64x128 : Shape := ⟨3, ![2, 64, 128]⟩
abbrev S8x1 : Shape := ⟨2, ![8, 1]⟩
abbrev S8x4096 : Shape := ⟨2, ![8, 4096]⟩
abbrev S1x64x128 : Shape := ⟨3, ![1, 64, 128]⟩
abbrev S64x128 : Shape := ⟨2, ![64, 128]⟩
abbrev S64x4096 : Shape := ⟨2, ![64, 4096]⟩
abbrev S4096x128 : Shape := ⟨2, ![4096, 128]⟩
abbrev S1x1 : Shape := ⟨2, ![1, 1]⟩
abbrev S1x4096 : Shape := ⟨2, ![1, 4096]⟩
abbrev S4096 : Shape := ⟨1, ![4096]⟩
abbrev S4096x1 : Shape := ⟨2, ![4096, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192, .f32⟩
  | .hbm, ⟨1, _⟩ => ⟨S8192x4096, .f32⟩
  | .hbm, ⟨2, _⟩ => ⟨S8192x4096, .i32⟩
  | .hbm, ⟨3, _⟩ => ⟨S8192x1, .f32⟩
  | .hbm, ⟨4, _⟩ => ⟨S2x64x128, .f32⟩
  | .hbm, ⟨5, _⟩ => ⟨S_, .f32⟩
  | .hbm, ⟨6, _⟩ => ⟨S64x128, .f32⟩
  | .hbm, ⟨7, _⟩ => ⟨S8192, .f32⟩
  | .local _ .vmem, ⟨0, _⟩ => ⟨S8x1, .f32⟩
  | .local _ .vmem, ⟨1, _⟩ => ⟨S8x1, .f32⟩
  | .local _ .vmem, ⟨2, _⟩ => ⟨S8x4096, .f32⟩
  | .local _ .vmem, ⟨3, _⟩ => ⟨S8x4096, .f32⟩
  | .local _ .vmem, ⟨4, _⟩ => ⟨S8x4096, .i32⟩
  | .local _ .vmem, ⟨5, _⟩ => ⟨S8x4096, .i32⟩
  | .local _ .vmem, ⟨6, _⟩ => ⟨S1x64x128, .f32⟩
  | .local _ .vmem, ⟨7, _⟩ => ⟨S1x64x128, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 512], ![false, false]⟩

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  iota_S64x4096_d0_w32 : S64x4096.Iotas .tc 32 [0]
  iota_S4096x128_d1_w32 : S4096x128.Iotas .tc 32 [1]
  inb_S8x1_S1x1_0_0 : ∀ a, (![0, 0] : Fin 2 → Nat) a + S1x1.size a ≤ S8x1.size a
  h_S1x1 : 0 < S1x1.numel
  inpos_S1x1_p0_0 : ∀ a, (![0, 0] : Fin 2 → Nat) a < S1x1.size a
  inb_S8x4096_S1x4096_0_0 : ∀ a, (![0, 0] : Fin 2 → Nat) a + S1x4096.size a ≤ S8x4096.size a
  h_S1x4096 : 0 < S1x4096.numel
  shapeCasts_S1x4096_S4096 : S1x4096.ShapeCasts S4096
  shapeCasts_S4096_S1x4096 : S4096.ShapeCasts S1x4096
  broadcasts_S1x4096_S64x4096 : S1x4096.Broadcasts S64x4096
  natLt_1_32 : 1 < 32
  bitsLt_bf16_f32 : FTy.bits .bf16 < FTy.bits .f32
  shapeCasts_S4096_S4096x1 : S4096.ShapeCasts S4096x1
  broadcasts_S4096x1_S4096x128 : S4096x1.Broadcasts S4096x128
  inb_S8x1_S1x1_1_0 : ∀ a, (![1, 0] : Fin 2 → Nat) a + S1x1.size a ≤ S8x1.size a
  inb_S8x4096_S1x4096_1_0 : ∀ a, (![1, 0] : Fin 2 → Nat) a + S1x4096.size a ≤ S8x4096.size a
  inb_S8x1_S1x1_2_0 : ∀ a, (![2, 0] : Fin 2 → Nat) a + S1x1.size a ≤ S8x1.size a
  inb_S8x4096_S1x4096_2_0 : ∀ a, (![2, 0] : Fin 2 → Nat) a + S1x4096.size a ≤ S8x4096.size a
  inb_S8x1_S1x1_3_0 : ∀ a, (![3, 0] : Fin 2 → Nat) a + S1x1.size a ≤ S8x1.size a
  inb_S8x4096_S1x4096_3_0 : ∀ a, (![3, 0] : Fin 2 → Nat) a + S1x4096.size a ≤ S8x4096.size a
  inb_S8x1_S1x1_4_0 : ∀ a, (![4, 0] : Fin 2 → Nat) a + S1x1.size a ≤ S8x1.size a
  inb_S8x4096_S1x4096_4_0 : ∀ a, (![4, 0] : Fin 2 → Nat) a + S1x4096.size a ≤ S8x4096.size a
  inb_S8x1_S1x1_5_0 : ∀ a, (![5, 0] : Fin 2 → Nat) a + S1x1.size a ≤ S8x1.size a
  inb_S8x4096_S1x4096_5_0 : ∀ a, (![5, 0] : Fin 2 → Nat) a + S1x4096.size a ≤ S8x4096.size a
  inb_S8x1_S1x1_6_0 : ∀ a, (![6, 0] : Fin 2 → Nat) a + S1x1.size a ≤ S8x1.size a
  inb_S8x4096_S1x4096_6_0 : ∀ a, (![6, 0] : Fin 2 → Nat) a + S1x4096.size a ≤ S8x4096.size a
  inb_S8x1_S1x1_7_0 : ∀ a, (![7, 0] : Fin 2 → Nat) a + S1x1.size a ≤ S8x1.size a
  inb_S8x4096_S1x4096_7_0 : ∀ a, (![7, 0] : Fin 2 → Nat) a + S1x4096.size a ≤ S8x4096.size a
  reducesTo_S2x64x128_S64x128_d0 : S2x64x128.ReducesTo [0] S64x128
  h_S_ : 0 < S_.numel
  shapeCasts_S64x128_S8192 : S64x128.ShapeCasts S8192
  dot_S64x4096_S4096x128_S64x128_1_0_0_1_n_n_wf : DotDims.WF S64x4096 S4096x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S8192x1.size a
  hwx0_0 : ∀ i : grid0.Coords, EltTy.bits .f32 = 32 ∨ (Rect.block (s := S8192x1) S8x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8192x4096.size a
  hwx0_1 : ∀ i : grid0.Coords, EltTy.bits .f32 = 32 ∨ (Rect.block (s := S8192x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8192x4096.size a
  hwx0_2 : ∀ i : grid0.Coords, EltTy.bits .i32 = 32 ∨ (Rect.block (s := S8192x4096) S8x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S2x64x128.size a
  hwx0_3 : ∀ i : grid0.Coords, EltTy.bits .f32 = 32 ∨ (Rect.block (s := S2x64x128) S1x64x128.size (cc0_transform_3 i) (hinb0_3 i)).WholeWords (EltTy.packing .f32)

variable [Facts₀]

def dot_S64x4096_S4096x128_S64x128_1_0_0_1_n_n : DotDims S64x4096 S4096x128 S64x128 where
  lhsContracting := [1]
  rhsContracting := [0]
  lhsNonContracting := [0]
  rhsNonContracting := [1]
  lhsBatch := []
  rhsBatch := []
  wf := dot_S64x4096_S4096x128_S64x128_1_0_0_1_n_n_wf

abbrev win0_0 : Pipeline.Window sig grid0 :=
  Pipeline.Window.ofSpec (Memref.whole main_v0) S8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192 : Shape := ⟨1, ![8192]⟩
abbrev S8192x4096 : Shape := ⟨2, ![8192, 4096]⟩
abbrev S8192x1 : Shape := ⟨2, ![8192, 1]⟩
abbrev S_ : Shape := ⟨0, ![]⟩
abbrev S33554432 : Shape := ⟨1, ![33554432]⟩
abbrev S33554432x1 : Shape := ⟨2, ![33554432, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x4096, .f32⟩
  | .hbm, ⟨2, _⟩ => ⟨S8192x4096, .i32⟩
  | .hbm, ⟨3, _⟩ => ⟨S8192x1, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S33554432, .i32⟩
  | .hbm, ⟨9, _⟩ => ⟨S33554432, .f32⟩
  | .hbm, ⟨10, _⟩ => ⟨S_, .i32⟩
  | .hbm, ⟨11, _⟩ => ⟨S33554432, .i32⟩
  | .hbm, ⟨12, _⟩ => ⟨S33554432, .i1⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S33554432, .i32⟩
  | .hbm, ⟨17, _⟩ => ⟨S33554432x1, .i32⟩
  | .hbm, ⟨18, _⟩ => ⟨S8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192 : S_.BroadcastsInDim S8192 (![] : Fin 0 → Fin S8192.rank)
  shapeCasts_S8192x4096_S33554432 : S8192x4096.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  scatter_S8192_S33554432x1_S33554432_n_0_0_1_wf : ScatterDims.WF S8192 S33554432x1 S33554432 [] [0] [0] 1

variable [Facts₀]

def scatter_S8192_S33554432x1_S33554432_n_0_0_1 : ScatterDims S8192 S33554432x1 S33554432 where
  updateWindowDims := []
  insertedWindowDims := [0]
  scatterDimsToOperandDims := [0]
  indexVectorDim := 1
  wf := scatter_S8192_S33554432x1_S33554432_n_0_0_1_wf

class Facts : Prop extends Facts₀ where

variable [Facts]
-- ==== Proof.OneHot.lean ====
/-
  The two one-hot tests of the kernel, on one 32-bit target word.

  The kernel splits a target t into its high part t >> 7 (an arithmetic shift) and its low part t & 127, and compares the
  first with a row number h below 64 and the second with a lane number l below 128.  Both tests pass exactly when t, read
  as a signed integer, is 128 h + l: a signed word is 128 times its arithmetic shift by 7 plus its low seven bits, and
  those bits are below 128.  A passed test, widened to 32 bits and converted to a float, is the real 1; a failed one 0.
-/
import Idealize.ShloMosaic.PureOps.Ideal
import Idealize.ShloMosaic.Lib.ValueIdx

noncomputable section

namespace Cert.ScatterSpec

open Idealize.ShloMosaic Idealize.ShloMosaic.ValueIdx

/-- Both tests pass exactly when the word, read signed, is 128 h + l. -/
theorem split_iff (t : BitVec 32) (h : Fin 64) (l : Fin 128) :
    (BitVec.ofNat 32 h.val = IntOp.shrsi .vector t 7#32 ∧ BitVec.ofNat 32 l.val = IntOp.andi t 127#32)
      ↔ t.toInt = ((128 * h.val + l.val : ℕ) : ℤ) := by
  -- the shift amount 7 is below the width, so the shift is the plain arithmetic one: the floor of toInt / 128
  have hs : IntOp.shrsi .vector t 7#32 = t.sshiftRight' 7#32 := by
    unfold IntOp.shrsi; rw [if_pos (by decide)]
  have hsI : (t.sshiftRight' 7#32).toInt = t.toInt / 128 := by
    rw [BitVec.toInt_sshiftRight', Int.shiftRight_eq_div_pow]; rfl
  -- the mask keeps the low seven bits: the unsigned value modulo 128
  have haN : (IntOp.andi t 127#32).toNat = t.toNat % 128 := by
    unfold IntOp.andi; rw [BitVec.toNat_and]; exact Nat.and_two_pow_sub_one_eq_mod t.toNat 7
  -- a row number below 64 and a lane number below 128 are read back unchanged from their words
  have hh : (BitVec.ofNat 32 h.val).toInt = (h.val : ℤ) := by
    have hlt := h.isLt
    have hN : (BitVec.ofNat 32 h.val).toNat = h.val := by
      rw [BitVec.toNat_ofNat]; omega
    have hb := BitVec.toInt_eq_toNat_cond (BitVec.ofNat 32 h.val)
    rw [hN] at hb
    split_ifs at hb <;> omega
  have hl : (BitVec.ofNat 32 l.val).toNat = l.val := by
    have := l.isLt
    rw [BitVec.toNat_ofNat]; omega
  -- signed and unsigned readings of t differ by 0 or 2^32, a multiple of 128
  have hc := BitVec.toInt_eq_toNat_cond t
  have ht := t.isLt
  have hhl := h.isLt
  have hll := l.isLt
  constructor
  · rintro ⟨h1, h2⟩
    have e1 := congrArg BitVec.toInt h1
    have e2 := congrArg BitVec.toNat h2
    rw [hs, hsI, hh] at e1
    rw [haN, hl] at e2
    split_ifs at hc <;> omega
  · intro e
    constructor
    · apply BitVec.eq_of_toInt_eq
      rw [hs, hsI, hh]
      omega
    · apply BitVec.eq_of_toNat_eq
      rw [haN, hl]
      split_ifs at hc <;> omega

/-- An equality test of two words, widened to 32 bits and converted to a float, at the ideal instance. -/
theorem onehot_val (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases hab : a = b
  · have hb : (a == b) = true := by simp [hab]
    rw [hb, if_pos hab]
    have : ((BitVec.ofBool true).setWidth 32).toInt = 1 := by decide
    rw [this]; simp
  · have hb : (a == b) = false := by simp [hab]
    rw [hb, if_neg hab]
    have : ((BitVec.ofBool false).setWidth 32).toInt = 0 := by decide
    rw [this]; simp

end Cert.ScatterSpec

end
-- ==== Proof.RowStep.lean ====
/-
  One row's update of the 64 by 128 accumulator, read at an entry.

  For a row with scalar xv, weights wrow and targets trow the body forms weighted = xv * wrow, the one-hot matrices
  [row h = trow >> 7] (64 by 4096) and [trow & 127 = lane l] (4096 by 128), and adds to the accumulator the product of
  (one-hot of the high parts) * weighted with the one-hot of the low parts, then the same product with the residual
  weighted - weighted in weighted's place.  At the ideal instance the residual of a real number is 0, so entry (h, l)
  gains the sum of xv * wrow[j] over the columns j whose target is 128 h + l.
-/
import proofs.«407572_j78778290143897_2_alg».proof.Proof.Gen.KernelIdeal.Skeleton
import proofs.«407572_j78778290143897_2_alg».proof.Proof.OneHot
import Idealize.ShloMosaic.Lib.Pipeline.Value
import Idealize.ShloMosaic.Lib.ValueLayout
import Idealize.ShloMosaic.PureOps.Ideal.Laws

noncomputable section

open scoped BigOperators
open Idealize.ShloMosaic

namespace Cert.KernelIdeal.Body

open Cert.KernelIdeal Cert.KernelIdeal.Gen Idealize.ShloMosaic.ValueIdx Cert.ScatterSpec

/-- The row numbers 0 .. 63 along the 4096 columns, and the lane numbers 0 .. 127 along the 4096 rows: the two iotas
    the body compares the targets' parts with. -/
abbrev iotaHi : IVec S64x4096 32 := iota .tc S64x4096 32 [0] iota_S64x4096_d0_w32
abbrev iotaLo : IVec S4096x128 32 := iota .tc S4096x128 32 [1] iota_S4096x128_d1_w32

/-! ## The two column layouts: a vector as one column, and one column copied across -/

/-- An [a] vector cast to [a, 1] reads, at (i, u), the operand at i. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a 64 by 4096 and a 4096 by 128 matrix at an entry -/

/-- The left operand's row is the entry's row. -/
private theorem lhs_dot_0 (j : S64x128.Idx) (k : dot_S64x4096_S4096x128_S64x128_1_0_0_1_n_n.contr.Idx) :
    (dot_S64x4096_S4096x128_S64x128_1_0_0_1_n_n.lhsIdx j k 0).val = (j 0).val := by
  unfold DotDims.lhsIdx
  rw [dif_neg (show ¬(0 : Fin S64x4096.rank) ∈ dot_S64x4096_S4096x128_S64x128_1_0_0_1_n_n.lhsBatch by decide),
    dif_pos (show (0 : Fin S64x4096.rank) ∈ dot_S64x4096_S4096x128_S64x128_1_0_0_1_n_n.lhsNonContracting by decide)]
  rfl

/-- The left operand's column is the summation index. -/
private theorem lhs_dot_1 (j : S64x128.Idx) (k : dot_S64x4096_S4096x128_S64x128_1_0_0_1_n_n.contr.Idx) :
    (dot_S64x4096_S4096x128_S64x128_1_0_0_1_n_n.lhsIdx j k 1).val = (k ⟨0, by decide⟩).val :=
  dot_S64x4096_S4096x128_S64x128_1_0_0_1_n_n.lhsIdx_val_of_single rfl j k

/-- The right operand's row is the summation index. -/
private theorem rhs_dot_0 (j : S64x128.Idx) (k : dot_S64x4096_S4096x128_S64x128_1_0_0_1_n_n.contr.Idx) :
    (dot_S64x4096_S4096x128_S64x128_1_0_0_1_n_n.rhsIdx j k 0).val = (k ⟨0, by decide⟩).val :=
  dot_S64x4096_S4096x128_S64x128_1_0_0_1_n_n.rhsIdx_val_of_single rfl j k

/-- The right operand's column is the entry's column. -/
private theorem rhs_dot_1 (j : S64x128.Idx) (k : dot_S64x4096_S4096x128_S64x128_1_0_0_1_n_n.contr.Idx) :
    (dot_S64x4096_S4096x128_S64x128_1_0_0_1_n_n.rhsIdx j k 1).val = (j 1).val := by
  unfold DotDims.rhsIdx
  rw [dif_neg (show ¬(1 : Fin S4096x128.rank) ∈ dot_S64x4096_S4096x128_S64x128_1_0_0_1_n_n.rhsBatch by decide),
    dif_pos (show (1 : Fin S4096x128.rank) ∈ dot_S64x4096_S4096x128_S64x128_1_0_0_1_n_n.rhsNonContracting by decide)]
  rfl

/-- The matrix product into the zero accumulator, at entry (h, l): the sum over the 4096 columns of the products. -/
private theorem matmul_zero_apply (A : FVec Ideal S64x4096 .bf16) (B : FVec Ideal S4096x128 .bf16) (h : Fin 64) (l : Fin 128) :
    (FloatOps.matmul dot_S64x4096_S4096x128_S64x128_1_0_0_1_n_n none A B (constant (F := Ideal) S64x128 .f32 0x00000000#32) (ix2 h l) : EReal)
      = ∑ j : Fin 4096, (A (ix2 h j) : EReal) * (B (ix2 j l) : EReal) := by
  rw [Ideal.matmul_constant_zero_apply,
    ← Equiv.sum_comp (contrEquiv1 dot_S64x4096_S4096x128_S64x128_1_0_0_1_n_n 4096 rfl rfl).symm]
  refine Finset.sum_congr rfl fun c _ => ?_
  have c2 := contrEquiv1_symm_val dot_S64x4096_S4096x128_S64x128_1_0_0_1_n_n 4096 rfl rfl c
  have l2 : dot_S64x4096_S4096x128_S64x128_1_0_0_1_n_n.lhsIdx (ix2 h l) ((contrEquiv1 _ 4096 rfl rfl).symm c) = ix2 h c := by
    funext ax; apply Fin.ext
    match ax with
    | ⟨0, _⟩ => exact lhs_dot_0 _ _
    | ⟨1, _⟩ => exact (lhs_dot_1 _ _).trans c2
  have r2 : dot_S64x4096_S4096x128_S64x128_1_0_0_1_n_n.rhsIdx (ix2 h l) ((contrEquiv1 _ 4096 rfl rfl).symm c) = ix2 c l := by
    funext ax; apply Fin.ext
    match ax with
    | ⟨0, _⟩ => exact (rhs_dot_0 _ _).trans c2
    | ⟨1, _⟩ => exact rhs_dot_1 _ _
  rw [l2, r2]

/-! ## The operands of the two products -/

/-- The one-hot matrix of the targets' high parts: entry (h, j) tests h against trow j >> 7. -/
private def hotHi (trow : IVec S4096 32) : FVec Ideal S64x4096 .bf16 :=
  truncf .bf16 (sitofp .f32 (extui 32 (cmpi .eq iotaHi
    (broadcastTo S64x4096 (shapeCast S1x4096 (shrsi trow (broadcast S4096 7#32)) shapeCasts_S4096_S1x4096)
      broadcasts_S1x4096_S64x4096)) natLt_1_32)) bitsLt_bf16_f32

/-- The one-hot matrix of the targets' low parts: entry (j, l) tests l against trow j & 127. -/
private def hotLo (trow : IVec S4096 32) : FVec Ideal S4096x128 .bf16 :=
  truncf .bf16 (sitofp .f32 (extui 32 (cmpi .eq iotaLo
    (broadcastTo S4096x128 (shapeCast S4096x1 (andi trow (broadcast S4096 127#32)) shapeCasts_S4096_S4096x1)
      broadcasts_S4096x1_S4096x128)) natLt_1_32)) bitsLt_bf16_f32

/-- A vector of 4096 values copied into each of the 64 rows. -/
private def rows (v : FVec Ideal S4096 .bf16) : FVec Ideal S64x4096 .bf16 :=
  broadcastTo S64x4096 (shapeCast S1x4096 v shapeCasts_S4096_S1x4096) broadcasts_S1x4096_S64x4096

/-- The high one-hot matrix at (h, j): 1 when h is the high part of target j, else 0. -/
private theorem hotHi_apply (trow : IVec S4096 32) (h : Fin 64) (j : Fin 4096) :
    (hotHi trow (ix2 h j) : EReal) = if BitVec.ofNat 32 h.val = IntOp.shrsi .vector (trow (ix1 j)) 7#32 then 1 else 0 := by
  have e1 : iotaHi (ix2 h j) = BitVec.ofNat 32 h.val := iota_single_apply .tc S64x4096 32 0 _ (ix2 h j)
  have e2 : broadcastTo S64x4096 (shapeCast S1x4096 (shrsi trow (broadcast S4096 7#32)) shapeCasts_S4096_S1x4096)
      broadcasts_S1x4096_S64x4096 (ix2 h j) = IntOp.shrsi .vector (trow (ix1 j)) 7#32 :=
    (broadcastTo_1b_ab_apply _ _ h j).trans (shapeCast_a_1a_apply _ _ 0 j)
  show (FloatOps.sitofp (F := Ideal) .f32 ((IntOp.cmpi .eq (iotaHi (ix2 h j))
    (broadcastTo S64x4096 (shapeCast S1x4096 (shrsi trow (broadcast S4096 7#32)) shapeCasts_S4096_S1x4096)
      broadcasts_S1x4096_S64x4096 (ix2 h j))).setWidth 32) : EReal) = _
  rw [e1, e2]
  exact onehot_val _ _

/-- The low one-hot matrix at (j, l): 1 when l is the low part of target j, else 0. -/
private theorem hotLo_apply (trow : IVec S4096 32) (j : Fin 4096) (l : Fin 128) :
    (hotLo trow (ix2 j l) : EReal) = if BitVec.ofNat 32 l.val = IntOp.andi (trow (ix1 j)) 127#32 then 1 else 0 := by
  have e1 : iotaLo (ix2 j l) = BitVec.ofNat 32 l.val := iota_single_apply .tc S4096x128 32 1 _ (ix2 j l)
  have e2 : broadcastTo S4096x128 (shapeCast S4096x1 (andi trow (broadcast S4096 127#32)) shapeCasts_S4096_S4096x1)
      broadcasts_S4096x1_S4096x128 (ix2 j l) = IntOp.andi (trow (ix1 j)) 127#32 :=
    (broadcastTo_a1_ab_apply _ _ j l).trans (shapeCast_a_a1_apply _ _ j 0)
  show (FloatOps.sitofp (F := Ideal) .f32 ((IntOp.cmpi .eq (iotaLo (ix2 j l))
    (broadcastTo S4096x128 (shapeCast S4096x1 (andi trow (broadcast S4096 127#32)) shapeCasts_S4096_S4096x1)
      broadcasts_S4096x1_S4096x128 (ix2 j l))).setWidth 32) : EReal) = _
  rw [e1, e2]
  exact onehot_val _ _

/-- Every row of the copied matrix is the vector. -/
private theorem rows_apply (v : FVec Ideal S4096 .bf16) (h : Fin 64) (j : Fin 4096) : rows v (ix2 h j) = v (ix1 j) :=
  (broadcastTo_1b_ab_apply _ _ h j).trans (shapeCast_a_1a_apply _ _ 0 j)

/-- One product at entry (h, l): the two tests together pick the columns whose target is 128 h + l. -/
private theorem hotProduct_apply (trow : IVec S4096 32) (v : FVec Ideal S4096 .bf16) (h : Fin 64) (l : Fin 128) :
    (FloatOps.matmul dot_S64x4096_S4096x128_S64x128_1_0_0_1_n_n none (mulf (hotHi trow) (rows v)) (hotLo trow)
        (constant (F := Ideal) S64x128 .f32 0x00000000#32) (ix2 h l) : EReal)
      = ∑ j : Fin 4096, if (trow (ix1 j)).toInt = ((128 * h.val + l.val : ℕ) : ℤ) then (v (ix1 j) : EReal) else 0 := by
  rw [matmul_zero_apply]
  refine Finset.sum_congr rfl fun j _ => ?_
  rw [mulf_apply, hotHi_apply, hotLo_apply, rows_apply]
  by_cases ht : (trow (ix1 j)).toInt = ((128 * h.val + l.val : ℕ) : ℤ)
  · obtain ⟨h1, h2⟩ := (split_iff (trow (ix1 j)) h l).mpr ht
    rw [if_pos h1, if_pos h2, if_pos ht, one_mul, mul_one]
  · rw [if_neg ht]
    by_cases h1 : BitVec.ofNat 32 h.val = IntOp.shrsi .vector (trow (ix1 j)) 7#32
    · have h2 : ¬ BitVec.ofNat 32 l.val = IntOp.andi (trow (ix1 j)) 127#32 := fun h2 => ht ((split_iff _ h l).mp ⟨h1, h2⟩)
      rw [if_neg h2, mul_zero]
    · rw [if_neg h1, zero_mul, zero_mul]

/-- ONE ROW'S UPDATE AT ENTRY (h, l): the accumulator there plus the row's products over the columns whose target is
    128 h + l. -/
theorem rowStep_apply (acc : FVec Ideal S64x128 .f32) (xv : Ideal .f32) (wrow : FVec Ideal S4096 .f32) (trow : IVec S4096 32)
    (hxv : ∃ v : ℝ, (xv : EReal) = (v : EReal)) (hw : ∀ y, ∃ v : ℝ, (wrow y : EReal) = (v : EReal))
    (h : Fin 64) (l : Fin 128) :
    (k0_pay8 (F := Ideal) iotaHi iotaLo acc xv wrow trow (ix2 h l) : EReal)
      = (acc (ix2 h l) : EReal)
        + ∑ j : Fin 4096, if (trow (ix1 j)).toInt = ((128 * h.val + l.val : ℕ) : ℤ) then (xv : EReal) * (wrow (ix1 j) : EReal) else 0 := by
  -- the payload is the accumulator plus two products, the second with the residual weighted - weighted
  have hpay : k0_pay8 (F := Ideal) iotaHi iotaLo acc xv wrow trow
      = addf (addf acc
          (FloatOps.matmul dot_S64x4096_S4096x128_S64x128_1_0_0_1_n_n none
            (mulf (hotHi trow) (rows (truncf .bf16 (mulf (broadcast S4096 xv) wrow) bitsLt_bf16_f32))) (hotLo trow)
            (constant (F := Ideal) S64x128 .f32 0x00000000#32)))
          (FloatOps.matmul dot_S64x4096_S4096x128_S64x128_1_0_0_1_n_n none
            (mulf (hotHi trow) (rows (truncf .bf16
              (subf (mulf (broadcast S4096 xv) wrow) (mulf (broadcast S4096 xv) wrow)) bitsLt_bf16_f32))) (hotLo trow)
            (constant (F := Ideal) S64x128 .f32 0x00000000#32)) := rfl
  rw [hpay, addf_apply, addf_apply, hotProduct_apply, hotProduct_apply]
  -- a weighted value is a product of two reals, so its residual is 0 and the second product adds nothing
  have hz : ∀ j : Fin 4096, ((truncf .bf16 (subf (mulf (broadcast S4096 xv) wrow) (mulf (broadcast S4096 xv) wrow))
      bitsLt_bf16_f32 : FVec Ideal S4096 .bf16) (ix1 j) : EReal) = 0 := by
    intro j
    show ((xv : EReal) * (wrow (ix1 j) : EReal) - (xv : EReal) * (wrow (ix1 j) : EReal) : EReal) = 0
    obtain ⟨a, ha⟩ := hxv
    obtain ⟨b, hb⟩ := hw (ix1 j)
    rw [ha, hb, ← EReal.coe_mul]
    exact EReal.sub_self (EReal.coe_ne_top _) (EReal.coe_ne_bot _)
  have h2 : (∑ j : Fin 4096, if (trow (ix1 j)).toInt = ((128 * h.val + l.val : ℕ) : ℤ)
      then ((truncf .bf16 (subf (mulf (broadcast S4096 xv) wrow) (mulf (broadcast S4096 xv) wrow))
        bitsLt_bf16_f32 : FVec Ideal S4096 .bf16) (ix1 j) : EReal) else 0) = 0 :=
    Finset.sum_eq_zero fun j _ => by rw [hz j]; exact ite_self _
  rw [h2, add_zero]
  rfl

end Cert.KernelIdeal.Body

end
-- ==== Proof.KernelBody.lean ====
/-
  What one run of the kernel's body leaves in the output block.

  The body's stores were found as pure terms of its loads: one store of the whole 1 by 64 by 128 block, whose value is the
  block as it was (or the zero block, at a core's first point) plus the accumulator after the point's eight rows.  Each
  row's update of the accumulator is the same pure function of the accumulator so far and of the row's scalar, weights
  and targets, so the accumulator after the eight rows is that function applied eight times from zero, and at entry
  (h, l) it is the sum, over the eight rows and the columns whose target is 128 h + l, of x * w.
-/
import proofs.«407572_j78778290143897_2_alg».proof.Proof.Gen.KernelIdeal.Frame
import proofs.«407572_j78778290143897_2_alg».proof.Proof.RowStep
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem

namespace Cert.KernelIdeal.Body

open Cert.KernelIdeal Cert.KernelIdeal.Gen Idealize.ShloMosaic.ValueIdx

/-- The eight rows of a point's blocks, read for output entry k: the products x * w over the columns whose target is k. -/
def blockSum (x0 : Vec Ideal S8x1 .f32) (x1 : Vec Ideal S8x4096 .f32) (x2 : Vec Ideal S8x4096 .i32) (k : ℕ) : EReal :=
  ∑ r : Fin 8, ∑ j : Fin 4096,
    if (x2 (ix2 r j)).toInt = (k : ℤ) then (x0 (ix2 r (0 : Fin 1)) : EReal) * (x1 (ix2 r j) : EReal) else 0

theorem hz3 : (![0, 0, 0] : Fin 3 → Nat) = fun _ => 0 := funext fun a => by fin_cases a <;> rfl

/-! ## A row of the blocks, as the body loads it -/

/-- Row `off 0` of the x block: the scalar the body extracts from its 1 by 1 load. -/
def rowX (x0 : Vec Ideal S8x1 .f32) (off : Fin 2 → Nat) (hb : ∀ a, off a + S1x1.size a ≤ S8x1.size a) : Ideal .f32 :=
  extractAt ![0, 0] (View.ld x0 (Rect.unit (s := S8x1) off S1x1.size hb)) inpos_S1x1_p0_0

/-- The same row of the weights, as a vector of 4096. -/
def rowW (x1 : Vec Ideal S8x4096 .f32) (off : Fin 2 → Nat) (hb : ∀ a, off a + S1x4096.size a ≤ S8x4096.size a) :
    FVec Ideal S4096 .f32 :=
  shapeCast S4096 (View.ld x1 (Rect.unit (s := S8x4096) off S1x4096.size hb)) shapeCasts_S1x4096_S4096

/-- The same row of the targets. -/
def rowT (x2 : Vec Ideal S8x4096 .i32) (off : Fin 2 → Nat) (hb : ∀ a, off a + S1x4096.size a ≤ S8x4096.size a) :
    IVec S4096 32 :=
  shapeCast S4096 (View.ld x2 (Rect.unit (s := S8x4096) off S1x4096.size hb)) shapeCasts_S1x4096_S4096

theorem rowX_eq (x0 : Vec Ideal S8x1 .f32) (r : Fin 8) (off : Fin 2 → Nat) (hoff : off = ![r.val, 0])
    (hb : ∀ a, off a + S1x1.size a ≤ S8x1.size a) : rowX x0 off hb = x0 (ix2 r (0 : Fin 1)) := by
  subst hoff
  unfold rowX extractAt
  show x0 _ = x0 _
  congr 1
  funext a
  apply Fin.ext
  match a with
  | ⟨0, _⟩ => show r.val + 1 * 0 = r.val; omega
  | ⟨1, _⟩ => show 0 + 1 * 0 = 0; rfl

theorem rowW_eq (x1 : Vec Ideal S8x4096 .f32) (r : Fin 8) (off : Fin 2 → Nat) (hoff : off = ![r.val, 0])
    (hb : ∀ a, off a + S1x4096.size a ≤ S8x4096.size a) (j : Fin 4096) :
    rowW x1 off hb (ix1 j) = x1 (ix2 r j) := by
  subst hoff
  unfold rowW
  rw [shapeCast_1a_a_apply]
  show x1 _ = x1 _
  congr 1
  funext a
  apply Fin.ext
  match a with
  | ⟨0, _⟩ => show r.val + 1 * 0 = r.val; omega
  | ⟨1, _⟩ => show 0 + 1 * j.val = j.val; omega

theorem rowT_eq (x2 : Vec Ideal S8x4096 .i32) (r : Fin 8) (off : Fin 2 → Nat) (hoff : off = ![r.val, 0])
    (hb : ∀ a, off a + S1x4096.size a ≤ S8x4096.size a) (j : Fin 4096) :
    rowT x2 off hb (ix1 j) = x2 (ix2 r j) := by
  subst hoff
  unfold rowT
  rw [shapeCast_1a_a_apply]
  show x2 _ = x2 _
  congr 1
  funext a
  apply Fin.ext
  match a with
  | ⟨0, _⟩ => show r.val + 1 * 0 = r.val; omega
  | ⟨1, _⟩ => show 0 + 1 * j.val = j.val; omega

/-! ## The accumulator after the eight rows -/

/-- One row's update of the accumulator: the body's pure function of the accumulator so far and the row's loads. -/
def step (acc : FVec Ideal S64x128 .f32) (x0 : Vec Ideal S8x1 .f32) (x1 : Vec Ideal S8x4096 .f32) (x2 : Vec Ideal S8x4096 .i32)
    (off : Fin 2 → Nat) (hb0 : ∀ a, off a + S1x1.size a ≤ S8x1.size a) (hb1 : ∀ a, off a + S1x4096.size a ≤ S8x4096.size a) :
    FVec Ideal S64x128 .f32 :=
  k0_pay8 (F := Ideal) iotaHi iotaLo acc (rowX x0 off hb0) (rowW x1 off hb1) (rowT x2 off hb1)

/-- At entry (h, l) a row's update adds the row's products over the columns whose target is 128 h + l. -/
theorem step_apply (acc : FVec Ideal S64x128 .f32) (x0 : Vec Ideal S8x1 .f32) (x1 : Vec Ideal S8x4096 .f32)
    (x2 : Vec Ideal S8x4096 .i32) (r : Fin 8) (off : Fin 2 → Nat) (hoff : off = ![r.val, 0])
    (hb0 : ∀ a, off a + S1x1.size a ≤ S8x1.size a) (hb1 : ∀ a, off a + S1x4096.size a ≤ S8x4096.size a)
    (hx0 : ∀ y, ∃ v : ℝ, (x0 y : EReal) = (v : EReal)) (hx1 : ∀ y, ∃ v : ℝ, (x1 y : EReal) = (v : EReal))
    (h : Fin 64) (l : Fin 128) :
    (step acc x0 x1 x2 off hb0 hb1 (ix2 h l) : EReal)
      = (acc (ix2 h l) : EReal)
        + ∑ j : Fin 4096, if (x2 (ix2 r j)).toInt = ((128 * h.val + l.val : ℕ) : ℤ)
            then (x0 (ix2 r (0 : Fin 1)) : EReal) * (x1 (ix2 r j) : EReal) else 0 := by
  unfold step
  refine (rowStep_apply acc (rowX x0 off hb0) (rowW x1 off hb1) (rowT x2 off hb1) ?_ ?_ h l).trans ?_
  · rw [rowX_eq x0 r off hoff hb0]; exact hx0 _
  · intro y
    obtain ⟨j, rfl⟩ : ∃ j : Fin 4096, y = ix1 j := ⟨y 0, eq_ix1 y⟩
    rw [rowW_eq x1 r off hoff hb1 j]; exact hx1 _
  · refine congrArg (fun s : EReal => (acc (ix2 h l) : EReal) + s) (Finset.sum_congr rfl fun j _ => ?_)
    rw [rowX_eq x0 r off hoff hb0, rowW_eq x1 r off hoff hb1 j, rowT_eq x2 r off hoff hb1 j]

/-- The zero accumulator the body starts each point from. -/
abbrev zeroAcc : FVec Ideal S64x128 .f32 := broadcast S64x128 (Scalar.ofBits (F := Ideal) .f32 0x00000000#32)

/-- The accumulator after the point's eight rows. -/
def acc8 (x0 : Vec Ideal S8x1 .f32) (x1 : Vec Ideal S8x4096 .f32) (x2 : Vec Ideal S8x4096 .i32) : FVec Ideal S64x128 .f32 :=
  step (step (step (step (step (step (step (step zeroAcc
    x0 x1 x2 ![0, 0] inb_S8x1_S1x1_0_0 inb_S8x4096_S1x4096_0_0)
    x0 x1 x2 ![1, 0] inb_S8x1_S1x1_1_0 inb_S8x4096_S1x4096_1_0)
    x0 x1 x2 ![2, 0] inb_S8x1_S1x1_2_0 inb_S8x4096_S1x4096_2_0)
    x0 x1 x2 ![3, 0] inb_S8x1_S1x1_3_0 inb_S8x4096_S1x4096_3_0)
    x0 x1 x2 ![4, 0] inb_S8x1_S1x1_4_0 inb_S8x4096_S1x4096_4_0)
    x0 x1 x2 ![5, 0] inb_S8x1_S1x1_5_0 inb_S8x4096_S1x4096_5_0)
    x0 x1 x2 ![6, 0] inb_S8x1_S1x1_6_0 inb_S8x4096_S1x4096_6_0)
    x0 x1 x2 ![7, 0] inb_S8x1_S1x1_7_0 inb_S8x4096_S1x4096_7_0

/-- At entry (h, l) it is the eight rows' sums for entry 128 h + l. -/
theorem acc8_apply (x0 : Vec Ideal S8x1 .f32) (x1 : Vec Ideal S8x4096 .f32) (x2 : Vec Ideal S8x4096 .i32)
    (hx0 : ∀ y, ∃ v : ℝ, (x0 y : EReal) = (v : EReal)) (hx1 : ∀ y, ∃ v : ℝ, (x1 y : EReal) = (v : EReal))
    (h : Fin 64) (l : Fin 128) :
    (acc8 x0 x1 x2 (ix2 h l) : EReal) = blockSum x0 x1 x2 (128 * h.val + l.val) := by
  unfold acc8 blockSum
  rw [step_apply _ x0 x1 x2 7 ![7, 0] rfl _ _ hx0 hx1 h l, step_apply _ x0 x1 x2 6 ![6, 0] rfl _ _ hx0 hx1 h l,
    step_apply _ x0 x1 x2 5 ![5, 0] rfl _ _ hx0 hx1 h l, step_apply _ x0 x1 x2 4 ![4, 0] rfl _ _ hx0 hx1 h l,
    step_apply _ x0 x1 x2 3 ![3, 0] rfl _ _ hx0 hx1 h l, step_apply _ x0 x1 x2 2 ![2, 0] rfl _ _ hx0 hx1 h l,
    step_apply _ x0 x1 x2 1 ![1, 0] rfl _ _ hx0 hx1 h l, step_apply _ x0 x1 x2 0 ![0, 0] rfl _ _ hx0 hx1 h l]
  rw [Fin.sum_univ_eight]
  show (Ideal.ofBits .f32 0x00000000#32 : EReal) + _ + _ + _ + _ + _ + _ + _ + _ = _
  rw [Ideal.ofBits_zero_f32, zero_add]

/-! ## What each control case leaves -/

/-- A point that is not a core's first adds its eight rows' sums to what the block held. -/
theorem out_B (c : Dev nD) (i : grid0.Coords) (a2 : Memref sig .tc .vmem S8x1 .f32) (h2 : a2.IsWhole)
    (a3 : Memref sig .tc .vmem S8x4096 .f32) (h3 : a3.IsWhole) (a4 : Memref sig .tc .vmem S8x4096 .i32) (h4 : a4.IsWhole)
    (a5 : Memref sig .tc .vmem S1x64x128 .f32) (h5 : a5.IsWhole) (hc : ¬cond0_0 i)
    (x0 : Vec Ideal S8x1 .f32) (x1 : Vec Ideal S8x4096 .f32) (x2 : Vec Ideal S8x4096 .i32) (xo : Vec Ideal S1x64x128 .f32)
    (hx0 : ∀ y, ∃ v : ℝ, (x0 y : EReal) = (v : EReal)) (hx1 : ∀ y, ∃ v : ℝ, (x1 y : EReal) = (v : EReal))
    (h : Fin 64) (l : Fin 128) :
    (out0_B_3 (F := Ideal) c i a2 h2 a3 h3 a4 h4 a5 h5 hc x0 x1 x2 xo (ix3 (0 : Fin 1) h l) : EReal)
      = (xo (ix3 (0 : Fin 1) h l) : EReal) + blockSum x0 x1 x2 (128 * h.val + l.val) := by
  have e : out0_B_3 (F := Ideal) c i a2 h2 a3 h3 a4 h4 a5 h5 hc x0 x1 x2 xo
      = shapeCast S1x64x128 (addf (shapeCast S64x128 xo shapeCasts_S1x64x128_S64x128) (acc8 x0 x1 x2))
          shapeCasts_S64x128_S1x64x128 := by
    unfold out0_B_3
    rw [View.read_writes_eq_canon _ _ _ (cover0_B_3 c i a2 h2 a3 h3 a4 h4 a5 h5 hc x0 x1 x2 xo)]
    unfold kernelRun0_B
    dsimp only
    sl_unfold_words
    rw [View.canon_unit_zero hz3]
    simp only [View.readAt_eq_ld, h2.read_unread, h3.read_unread, h4.read_unread, h5.read_unread,
      View.ld_unit_zero (S := S1x64x128) hz3]
    rfl
  rw [e, shapeCast_ab_1ab_apply, addf_apply, shapeCast_1ab_ab_apply, acc8_apply x0 x1 x2 hx0 hx1 h l]

/-- A core's first point resets the block and leaves its eight rows' sums. -/
theorem out_A (c : Dev nD) (i : grid0.Coords) (a2 : Memref sig .tc .vmem S8x1 .f32) (h2 : a2.IsWhole)
    (a3 : Memref sig .tc .vmem S8x4096 .f32) (h3 : a3.IsWhole) (a4 : Memref sig .tc .vmem S8x4096 .i32) (h4 : a4.IsWhole)
    (a5 : Memref sig .tc .vmem S1x64x128 .f32) (h5 : a5.IsWhole) (hc : cond0_0 i)
    (x0 : Vec Ideal S8x1 .f32) (x1 : Vec Ideal S8x4096 .f32) (x2 : Vec Ideal S8x4096 .i32)
    (hx0 : ∀ y, ∃ v : ℝ, (x0 y : EReal) = (v : EReal)) (hx1 : ∀ y, ∃ v : ℝ, (x1 y : EReal) = (v : EReal))
    (h : Fin 64) (l : Fin 128) :
    (out0_A_3 (F := Ideal) c i a2 h2 a3 h3 a4 h4 a5 h5 hc x0 x1 x2 (ix3 (0 : Fin 1) h l) : EReal)
      = blockSum x0 x1 x2 (128 * h.val + l.val) := by
  have e : out0_A_3 (F := Ideal) c i a2 h2 a3 h3 a4 h4 a5 h5 hc x0 x1 x2
      = shapeCast S1x64x128 (addf (shapeCast S64x128 (k0_pay2 (F := Ideal)) shapeCasts_S1x64x128_S64x128) (acc8 x0 x1 x2))
          shapeCasts_S64x128_S1x64x128 := by
    unfold out0_A_3
    rw [View.read_writes_eq_canon _ _ _ (cover0_A_3 c i a2 h2 a3 h3 a4 h4 a5 h5 hc x0 x1 x2)]
    unfold kernelRun0_A
    dsimp only
    sl_unfold_words
    rw [View.canon_cons_unit_zero (S := S1x64x128) hz3, View.readCov_unit_zero (S := S1x64x128) _ hz3]
    simp only [View.readAt_eq_ld, h2.read_unread, h3.read_unread, h4.read_unread]
    rfl
  rw [e, shapeCast_ab_1ab_apply, addf_apply, shapeCast_1ab_ab_apply, acc8_apply x0 x1 x2 hx0 hx1 h l]
  unfold k0_pay2
  rw [shapeCast_ab_1ab_apply]
  show (Ideal.ofBits .f32 0x00000000#32 : EReal) + _ = _
  rw [Ideal.ofBits_zero_f32, zero_add]

end Cert.KernelIdeal.Body

end
-- ==== Proof.Spec.lean ====
/-
  The scatter-add as one function of the three argument arrays, and the regrouping of its sum by the kernel's grid.

  Output entry k is the sum, over every row i of the 8192 rows and every column j of the 4096 columns, of
  x[i] * w[i, j] taken when the target t[i, j], read as a signed integer, is k, and of 0 otherwise.  The kernel visits
  the rows eight at a time: grid point n holds rows 8n .. 8n+7, and core c owns the points 512c .. 512c+511, so entry k is
  the sum of the two cores' partial sums (spec_eq_partials).  Only commutativity and associativity of the extended reals'
  addition are used here.
-/
import Idealize.ShloMosaic.PureOps.Ideal
import Idealize.ShloMosaic.Lib.ValueIdx
import Mathlib.Algebra.BigOperators.Group.Finset.Basic

noncomputable section

open scoped BigOperators

namespace Cert.ScatterSpec

open Idealize.ShloMosaic Idealize.ShloMosaic.ValueIdx

/-- The vector x: 8192 entries. -/
abbrev SX : Shape := ⟨1, ![8192]⟩
/-- The weights and the targets: 8192 rows of 4096 columns. -/
abbrev SW : Shape := ⟨2, ![8192, 4096]⟩
/-- The two cores' partial outputs, each laid out as 64 by 128. -/
abbrev SP : Shape := ⟨3, ![2, 64, 128]⟩

/-- Row i's part of output entry k: the products x[i] * w[i, j] over the columns j whose target is k. -/
def rowTerm (x : SX.Idx → EReal) (w : SW.Idx → EReal) (t : IVec SW 32) (k : ℕ) (i : Fin 8192) : EReal :=
  ∑ j : Fin 4096, if (t (ix2 i j)).toInt = (k : ℤ) then x (ix1 i) * w (ix2 i j) else 0

/-- THE RESULT: entry k is the sum of every row's part. -/
def spec (x : SX.Idx → EReal) (w : SW.Idx → EReal) (t : IVec SW 32) : SX.Idx → EReal :=
  fun k => ∑ i : Fin 8192, rowTerm x w t (k 0).val i

/-- A row number as a row, wrapped into range (the numbers met are below 8192). -/
def rowIdx (n : ℕ) : Fin 8192 := ⟨n % 8192, Nat.mod_lt _ (by decide)⟩

theorem rowIdx_of_lt (n : ℕ) (h : n < 8192) : rowIdx n = ⟨n, h⟩ := Fin.ext (Nat.mod_eq_of_lt h)

/-- Grid point n's part of entry k: its eight rows 8n .. 8n+7. -/
def pointTerm (x : SX.Idx → EReal) (w : SW.Idx → EReal) (t : IVec SW 32) (k : ℕ) (n : ℕ) : EReal :=
  ∑ r : Fin 8, rowTerm x w t k (rowIdx (8 * n + r.val))

/-- The running sum on a core after q+1 of its points, the first of them point n0. -/
def runSum (x : SX.Idx → EReal) (w : SW.Idx → EReal) (t : IVec SW 32) (k : ℕ) (n0 q : ℕ) : EReal :=
  ∑ p ∈ Finset.range (q + 1), pointTerm x w t k (n0 + p)

theorem runSum_zero (x : SX.Idx → EReal) (w : SW.Idx → EReal) (t : IVec SW 32) (k n0 : ℕ) :
    runSum x w t k n0 0 = pointTerm x w t k n0 := by
  unfold runSum
  rw [Finset.sum_range_one, Nat.add_zero]

theorem runSum_succ (x : SX.Idx → EReal) (w : SW.Idx → EReal) (t : IVec SW 32) (k n0 q : ℕ) :
    runSum x w t k n0 (q + 1) = runSum x w t k n0 q + pointTerm x w t k (n0 + (q + 1)) := by
  unfold runSum
  rw [Finset.sum_range_succ]

/-- A core's partial output: at (c, h, l) the sum over the core's 512 points of their parts of entry 128h + l. -/
def partialOut (x : SX.Idx → EReal) (w : SW.Idx → EReal) (t : IVec SW 32) : SP.Idx → EReal :=
  fun y => runSum x w t (128 * (y 1).val + (y 2).val) (512 * (y 0).val) 511

/-- A sum over the first m * n numbers, m stretches of n. -/
theorem sum_range_mul {M : Type*} [AddCommMonoid M] (f : ℕ → M) (m n : ℕ) :
    ∑ i ∈ Finset.range (m * n), f i = ∑ a ∈ Finset.range m, ∑ b ∈ Finset.range n, f (n * a + b) := by
  induction m with
  | zero => simp
  | succ m ih =>
    rw [Nat.succ_mul, Finset.sum_range_add, ih, Finset.sum_range_succ]
    congr 1
    exact Finset.sum_congr rfl fun b _ => by rw [Nat.mul_comm]

/-- The first 8192 numbers, as two cores' 512 points of 8 rows each. -/
theorem sum_two_cores {M : Type*} [AddCommMonoid M] (f : ℕ → M) :
    ∑ i ∈ Finset.range 8192, f i
      = ∑ p ∈ Finset.range 512, ∑ r ∈ Finset.range 8, f (8 * (512 * 0 + p) + r)
        + ∑ p ∈ Finset.range 512, ∑ r ∈ Finset.range 8, f (8 * (512 * 1 + p) + r) := by
  have h8192 : (8192 : ℕ) = 2 * (512 * 8) := by norm_num
  rw [h8192, sum_range_mul, Finset.sum_range_succ, Finset.sum_range_one, sum_range_mul, sum_range_mul]
  refine congrArg₂ (· + ·) ?_ ?_
  · refine Finset.sum_congr rfl fun p _ => Finset.sum_congr rfl fun r _ => congrArg f ?_
    omega
  · refine Finset.sum_congr rfl fun p _ => Finset.sum_congr rfl fun r _ => congrArg f ?_
    omega

/-- ENTRY k IS THE TWO CORES' PARTIAL SUMS. -/
theorem spec_eq_partials (x : SX.Idx → EReal) (w : SW.Idx → EReal) (t : IVec SW 32) (k : Fin 8192) (h : Fin 64)
    (l : Fin 128) (hk : k.val = 128 * h.val + l.val) :
    spec x w t (ix1 k) = partialOut x w t (ix3 (0 : Fin 2) h l) + partialOut x w t (ix3 (1 : Fin 2) h l) := by
  have e1 : spec x w t (ix1 k) = ∑ i ∈ Finset.range 8192, rowTerm x w t k.val (rowIdx i) := by
    show ∑ i : Fin 8192, rowTerm x w t k.val i = _
    rw [Finset.sum_range (fun i => rowTerm x w t k.val (rowIdx i))]
    exact Finset.sum_congr rfl fun i _ => by rw [rowIdx_of_lt i.val i.isLt]
  have e2 : ∀ n0 : ℕ, runSum x w t k.val n0 511
      = ∑ p ∈ Finset.range 512, ∑ r ∈ Finset.range 8, rowTerm x w t k.val (rowIdx (8 * (n0 + p) + r)) := by
    intro n0
    unfold runSum pointTerm
    exact Finset.sum_congr rfl fun p _ => (Finset.sum_range (fun r => rowTerm x w t k.val (rowIdx (8 * (n0 + p) + r)))).symm ▸ rfl
  show _ = runSum x w t (128 * h.val + l.val) (512 * 0) 511 + runSum x w t (128 * h.val + l.val) (512 * 1) 511
  rw [← hk, e1, e2, e2]
  exact sum_two_cores (fun i => rowTerm x w t k.val (rowIdx i))

end Cert.ScatterSpec

end
-- ==== Proof.KernelAcc.lean ====
/-
  What the output block holds after each grid point: the running sum of the core's points so far.
-/
import proofs.«407572_j78778290143897_2_alg».proof.Proof.KernelBody
import proofs.«407572_j78778290143897_2_alg».proof.Proof.Spec
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.ScatterSpec Cert.KernelIdeal.Body

variable (m : (ℓ : Loc nD τ sig) → Buf (Elt Ideal) ℓ)

/-- Where the three input windows sit at grid point t: block row t, block column 0 (the index maps send the grid
    coordinates (core, step) to (512 core + step, 0), and point t has coordinates (t / 512, t % 512)). -/
theorem idx_x : ∀ t : Fin cfg0.N, win0_0.index t 0 = t.val ∧ win0_0.index t 1 = 0 :=
  (by decide +kernel : ∀ t : Fin grid0.N, win0_0.index t 0 = t.val ∧ win0_0.index t 1 = 0)
theorem idx_w : ∀ t : Fin cfg0.N, win0_1.index t 0 = t.val ∧ win0_1.index t 1 = 0 :=
  (by decide +kernel : ∀ t : Fin grid0.N, win0_1.index t 0 = t.val ∧ win0_1.index t 1 = 0)
theorem idx_t : ∀ t : Fin cfg0.N, win0_2.index t 0 = t.val ∧ win0_2.index t 1 = 0 :=
  (by decide +kernel : ∀ t : Fin grid0.N, win0_2.index t 0 = t.val ∧ win0_2.index t 1 = 0)

/-- The three argument arrays on core c: the vector x, the weights, the targets. -/
abbrev xarr (c : Dev nD) : Vec Ideal S8192 .f32 := m ((c.tc : Thread nD τ).loc main_arg0)
abbrev warr (c : Dev nD) : Vec Ideal S8192x4096 .f32 := m ((c.tc : Thread nD τ).loc main_arg1)
abbrev tarr (c : Dev nD) : Vec Ideal S8192x4096 .i32 := m ((c.tc : Thread nD τ).loc main_arg2)
/-- Their blocks at grid point t: eight entries of x as a column, eight rows of the weights, eight rows of the targets. -/
abbrev xblk (c : Dev nD) (t : Fin cfg0.N) : Vec Ideal S8x1 .f32 := iblk m c 0 t
abbrev wblk (c : Dev nD) (t : Fin cfg0.N) : Vec Ideal S8x4096 .f32 := iblk m c 1 t
abbrev tblk (c : Dev nD) (t : Fin cfg0.N) : Vec Ideal S8x4096 .i32 := iblk m c 2 t

/-- Row r, column j of the weights' block at point t is row 8t + r, column j of the weights. -/
theorem wblk_apply (c : Dev nD) (t : Fin cfg0.N) (r : Fin 8) (j : Fin 4096) (ht : 8 * t.val + r.val < 8192) :
    wblk m c t (ix2 r j) = warr m c (ix2 ⟨8 * t.val + r.val, ht⟩ j) := by
  unfold wblk warr iblk
  rw [View.read_apply]
  show V m c main_arg1 _ = _
  rw [V_main_arg1]
  congr 1
  funext a
  apply Fin.ext
  match a with
  | ⟨0, _⟩ => show win0_1.index t 0 * 8 + 1 * r.val = 8 * t.val + r.val; rw [(idx_w t).1]; omega
  | ⟨1, _⟩ => show win0_1.index t 1 * 4096 + 1 * j.val = j.val; rw [(idx_w t).2]; omega

/-- Row r, column j of the targets' block at point t is row 8t + r, column j of the targets. -/
theorem tblk_apply (c : Dev nD) (t : Fin cfg0.N) (r : Fin 8) (j : Fin 4096) (ht : 8 * t.val + r.val < 8192) :
    tblk m c t (ix2 r j) = tarr m c (ix2 ⟨8 * t.val + r.val, ht⟩ j) := by
  unfold tblk tarr iblk
  rw [View.read_apply]
  show V m c main_arg2 _ = _
  rw [V_main_arg2]
  congr 1
  funext a
  apply Fin.ext
  match a with
  | ⟨0, _⟩ => show win0_2.index t 0 * 8 + 1 * r.val = 8 * t.val + r.val; rw [(idx_t t).1]; omega
  | ⟨1, _⟩ => show win0_2.index t 1 * 4096 + 1 * j.val = j.val; rw [(idx_t t).2]; omega

/-- The array the first window stages is x laid out as a column of 8192 rows: the one host operation before the region
    reshapes x to it. -/
theorem V_v0 (c : Dev nD) :
    (V m c main_v0 : S8192x1.Idx → EReal) = shapeCast S8192x1 (xarr m c) shapeCasts_S8192_S8192x1 := by
  show StableHlo.after hostOps0 (fun b => m (c, b)) (Proc.devRef .tc main_v0) = _
  after_results
  rfl

/-- Row r of x's block at point t is entry 8t + r of x: the column's row-major position (8t + r) * 1 + 0 is the vector's. -/
theorem xblk_apply (c : Dev nD) (t : Fin cfg0.N) (r : Fin 8) (ht : 8 * t.val + r.val < 8192) :
    xblk m c t (ix2 r (0 : Fin 1)) = xarr m c (ix1 ⟨8 * t.val + r.val, ht⟩) := by
  unfold xblk iblk
  rw [View.read_apply]
  show V m c main_v0 _ = _
  rw [V_v0]
  refine shapeCast_apply _ _ _ _ ?_
  rw [Shape.rowMajor_val_one, Shape.rowMajor_val_two]
  show 8 * t.val + r.val = (win0_0.index t 0 * 8 + 1 * r.val) * 1 + (win0_0.index t 1 * 1 + 1 * 0)
  rw [(idx_x t).1, (idx_x t).2]
  omega

/-- A grid point's eight rows lie inside the 8192 rows. -/
theorem row_lt (t : Fin cfg0.N) (r : Fin 8) : 8 * t.val + r.val < 8192 := by
  have hN : cfg0.N = 1024 := N_0
  have := t.isLt
  have := r.isLt
  omega

/-- Every entry of x's block is a real number when every entry of x is. -/
theorem xblk_real (hx : ∀ (c : Dev nD) y, ∃ v : ℝ, (m ((c.tc : Thread nD τ).loc main_arg0) y : EReal) = (v : EReal))
    (c : Dev nD) (t : Fin cfg0.N) (y : S8x1.Idx) : ∃ v : ℝ, (xblk m c t y : EReal) = (v : EReal) := by
  obtain ⟨a, b, rfl⟩ : ∃ (a : Fin 8) (b : Fin 1), y = ix2 a b := ⟨y 0, y 1, eq_ix2 y⟩
  obtain rfl : b = 0 := Subsingleton.elim _ _
  rw [xblk_apply m c t a (row_lt t a)]
  exact hx c _

/-- Every entry of the weights' block is a real number when every weight is. -/
theorem wblk_real (hw : ∀ (c : Dev nD) y, ∃ v : ℝ, (m ((c.tc : Thread nD τ).loc main_arg1) y : EReal) = (v : EReal))
    (c : Dev nD) (t : Fin cfg0.N) (y : S8x4096.Idx) : ∃ v : ℝ, (wblk m c t y : EReal) = (v : EReal) := by
  obtain ⟨a, b, rfl⟩ : ∃ (a : Fin 8) (b : Fin 4096), y = ix2 a b := ⟨y 0, y 1, eq_ix2 y⟩
  rw [wblk_apply m c t a b (row_lt t a)]
  exact hw c _

/-- The eight rows of point t's blocks, read for entry k, are point t's part of entry k. -/
theorem blockSum_eq (c : Dev nD) (t : Fin cfg0.N) (k : ℕ) :
    blockSum (xblk m c t) (wblk m c t) (tblk m c t) k = pointTerm (xarr m c) (warr m c) (tarr m c) k t.val := by
  unfold blockSum pointTerm rowTerm
  refine Finset.sum_congr rfl fun r _ => ?_
  rw [rowIdx_of_lt _ (row_lt t r)]
  refine Finset.sum_congr rfl fun j _ => ?_
  rw [xblk_apply m c t r (row_lt t r), wblk_apply m c t r j (row_lt t r), tblk_apply m c t r j (row_lt t r)]

/-- A core's first point leaves its own part in the block. -/
theorem first_point (hx : ∀ (c : Dev nD) y, ∃ v : ℝ, (m ((c.tc : Thread nD τ).loc main_arg0) y : EReal) = (v : EReal))
    (hw : ∀ (c : Dev nD) y, ∃ v : ℝ, (m ((c.tc : Thread nD τ).loc main_arg1) y : EReal) = (v : EReal))
    (c : Dev nD) (t : Fin cfg0.N) (h0 : t.val % 512 = 0) (h : Fin 64) (l : Fin 128) :
    (outsAt0 m c t.val t.isLt (ix3 (0 : Fin 1) h l) : EReal)
      = pointTerm (xarr m c) (warr m c) (tarr m c) (128 * h.val + l.val) t.val := by
  rw [outsAt0_A m c t h0]
  refine (out_A c (grid0.coords t) (ms0_0 t) (hs0_0 t) (ms0_1 t) (hs0_1 t) (ms0_2 t) (hs0_2 t) (ms0_3 t) (hs0_3 t)
    ((hcond0_0 t).mpr h0) (xblk m c t) (wblk m c t) (tblk m c t) (xblk_real m hx c t) (wblk_real m hw c t) h l).trans ?_
  exact blockSum_eq m c t _

/-- A later point adds its own part to what the point before left. -/
theorem later_point (hx : ∀ (c : Dev nD) y, ∃ v : ℝ, (m ((c.tc : Thread nD τ).loc main_arg0) y : EReal) = (v : EReal))
    (hw : ∀ (c : Dev nD) y, ∃ v : ℝ, (m ((c.tc : Thread nD τ).loc main_arg1) y : EReal) = (v : EReal))
    (c : Dev nD) (t : Fin cfg0.N) (h0 : ¬t.val % 512 = 0) (h : Fin 64) (l : Fin 128) :
    (outsAt0 m c t.val t.isLt (ix3 (0 : Fin 1) h l) : EReal)
      = (outsAt0 m c (t.val - 1) (Nat.lt_of_le_of_lt (Nat.sub_le _ _) t.isLt) (ix3 (0 : Fin 1) h l) : EReal)
        + pointTerm (xarr m c) (warr m c) (tarr m c) (128 * h.val + l.val) t.val := by
  rw [outsAt0_B m c t h0]
  refine (out_B c (grid0.coords t) (ms0_0 t) (hs0_0 t) (ms0_1 t) (hs0_1 t) (ms0_2 t) (hs0_2 t) (ms0_3 t) (hs0_3 t)
    (fun hc => h0 ((hcond0_0 t).mp hc)) (xblk m c t) (wblk m c t) (tblk m c t)
    (outsAt0 m c (t.val - 1) (Nat.lt_of_le_of_lt (Nat.sub_le _ _) t.isLt))
    (xblk_real m hx c t) (wblk_real m hw c t) h l).trans ?_
  rw [blockSum_eq m c t _]

/-- After grid point n the output's staging block holds, at (0, h, l), the sum over the points of n's core up to n of
    their parts of entry 128 h + l. -/
theorem outsAt_eq
    (hx : ∀ (c : Dev nD) y, ∃ v : ℝ, (m ((c.tc : Thread nD τ).loc main_arg0) y : EReal) = (v : EReal))
    (hw : ∀ (c : Dev nD) y, ∃ v : ℝ, (m ((c.tc : Thread nD τ).loc main_arg1) y : EReal) = (v : EReal))
    (c : Dev nD) (n : ℕ) (hn : n < cfg0.N) (h : Fin 64) (l : Fin 128) :
    (outsAt0 m c n hn (ix3 (0 : Fin 1) h l) : EReal)
      = runSum (m ((c.tc : Thread nD τ).loc main_arg0)) (m ((c.tc : Thread nD τ).loc main_arg1))
          (m ((c.tc : Thread nD τ).loc main_arg2)) (128 * h.val + l.val) (512 * (n / 512)) (n % 512) := by
  induction n with
  | zero =>
    rw [show (0 : ℕ) % 512 = 0 from rfl, show 512 * (0 / 512) = 0 from rfl, runSum_zero]
    exact first_point m hx hw c ⟨0, hn⟩ rfl h l
  | succ n ih =>
    have hN : cfg0.N = 1024 := N_0
    by_cases h0 : (n + 1) % 512 = 0
    · -- a core's first point: the run starts here
      rw [h0, runSum_zero, show 512 * ((n + 1) / 512) = n + 1 from by omega]
      exact first_point m hx hw c ⟨n + 1, hn⟩ h0 h l
    · -- a later point of the same core: one more term of the run
      rw [show (n + 1) % 512 = n % 512 + 1 from by omega, show (n + 1) / 512 = n / 512 from by omega, runSum_succ,
        ← ih (Nat.lt_of_succ_lt hn), show 512 * (n / 512) + (n % 512 + 1) = n + 1 from by omega]
      exact later_point m hx hw c ⟨n + 1, hn⟩ h0 h l

end Cert.KernelIdeal.Acc

end
-- ==== Proof.KernelArr.lean ====
/-
  The kernel's run, read: its result is the scatter-add's one function of the arguments.

  Each core keeps one 64 by 128 block of running sums and writes it back once, after the last of its 512 grid points, into
  its own slab of a 2 by 64 by 128 array; so that array ends holding, at (c, h, l), core c's sum over its 512 points of their
  parts of entry 128 h + l.  The host then adds the two slabs entry by entry, starting from zero, and lays the 64 by 128
  result out row by row as 8192 entries: entry k = 128 h + l is the sum of the two cores' partial sums, which is the
  scatter-add's entry k.
-/
import proofs.«407572_j78778290143897_2_alg».proof.Proof.KernelAcc
import proofs.«407572_j78778290143897_2_alg».proof.Proof.Spec
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx Cert.ScatterSpec Cert.KernelIdeal.Body Cert.KernelIdeal.Acc

variable (m : (ℓ : Loc nD τ sig) → Buf (Elt Ideal) ℓ) (ρ : Dev nD → PrngReg)

/-! ## The partial-output array after the grid -/

/-- At grid point t the output block sits at block index (t / 512, 0, 0) of the partial-output array: the core's slab,
    whole.  Checked at each of the 1024 points. -/
theorem blockIdx : ∀ t : Fin cfg0.N, win0_3.index t (0 : Fin 3) = t.val / 512 ∧ win0_3.index t (1 : Fin 3) = 0
    ∧ win0_3.index t (2 : Fin 3) = 0 :=
  (by decide +kernel : ∀ t : Fin grid0.N, win0_3.index t (0 : Fin 3) = t.val / 512 ∧ win0_3.index t (1 : Fin 3) = 0
    ∧ win0_3.index t (2 : Fin 3) = 0)

/-- A core's partial output at an entry whose three coordinates are known as numbers. -/
theorem partialOut_at (x : SX.Idx → EReal) (w : SW.Idx → EReal) (tg : IVec SW 32) (i : SP.Idx) (q h l : ℕ)
    (h0 : (i 0).val = q) (h1 : (i 1).val = h) (h2 : (i 2).val = l) :
    partialOut x w tg i = runSum x w tg (128 * h + l) (512 * q) 511 := by
  subst h0 h1 h2
  rfl

/-- What a point t with t % 512 = 511 writes back is its block of the partial sums: the block holds, at (0, h, l), the
    running sum of core t / 512 after all its 512 points, and it lands at (t / 512, h, l). -/
theorem flushed_eq
    (hx : ∀ (c : Dev nD) y, ∃ v : ℝ, (m ((c.tc : Thread nD τ).loc main_arg0) y : EReal) = (v : EReal))
    (hw : ∀ (c : Dev nD) y, ∃ v : ℝ, (m ((c.tc : Thread nD τ).loc main_arg1) y : EReal) = (v : EReal))
    (c : Dev nD) (t : Fin cfg0.N) (hf : (cfg0.win 3).flush t = true) :
    (dats m 0 c).flushed 3 t = ((cfg0.win 3).blk t).view.read (Elt Ideal)
      (partialOut (m ((c.tc : Thread nD τ).loc main_arg0)) (m ((c.tc : Thread nD τ).loc main_arg1))
        (m ((c.tc : Thread nD τ).loc main_arg2))) := by
  have h511 : t.val % 512 = 511 := (flush0_3 t).mp hf
  obtain ⟨i0, i1, i2⟩ := blockIdx t
  show (cfg0.win 3).cut (grid0.coords t) ((dats m 0 c).after 3 t) = _
  rw [after0_3]
  funext y
  obtain ⟨a, h, l, rfl⟩ : ∃ (a : Fin 1) (h : Fin 64) (l : Fin 128), y = ix3 a h l := ⟨y 0, y 1, y 2, eq_ix3 y⟩
  obtain rfl : a = 0 := Subsingleton.elim _ _
  show (outsAt0 m c t.val t.isLt (ix3 (0 : Fin 1) h l) : EReal)
    = partialOut (m ((c.tc : Thread nD τ).loc main_arg0)) (m ((c.tc : Thread nD τ).loc main_arg1))
        (m ((c.tc : Thread nD τ).loc main_arg2)) (((cfg0.win 3).blk t).view.emb (ix3 (0 : Fin 1) h l))
  rw [outsAt_eq m hx hw c t.val t.isLt h l, h511]
  -- a block entry's coordinate in the array: block index times block size, plus the coordinate inside the block
  refine (partialOut_at _ _ _ _ (t.val / 512) h.val l.val ?_ ?_ ?_).symm
  · show win0_3.index t (0 : Fin 3) * 1 + 1 * 0 = _
    rw [i0]; omega
  · show win0_3.index t (1 : Fin 3) * 64 + 1 * h.val = _
    rw [i1]; omega
  · show win0_3.index t (2 : Fin 3) * 128 + 1 * l.val = _
    rw [i2]; omega

/-- So the partial-output array ends holding each core's sums over its 512 points: entry (c', h, l) lies in the block that
    point 512 c' + 511 writes back. -/
theorem final
    (hx : ∀ (c : Dev nD) y, ∃ v : ℝ, (m ((c.tc : Thread nD τ).loc main_arg0) y : EReal) = (v : EReal))
    (hw : ∀ (c : Dev nD) y, ∃ v : ℝ, (m ((c.tc : Thread nD τ).loc main_arg1) y : EReal) = (v : EReal))
    (c : Dev nD) :
    (dats m 0 c).arrAt 3 cfg0.N
      = partialOut (m ((c.tc : Thread nD τ).loc main_arg0)) (m ((c.tc : Thread nD τ).loc main_arg1))
          (m ((c.tc : Thread nD τ).loc main_arg2)) :=
  (dats m 0 c).arrAt_eq_of_cover 3 _ (flushed_eq m hx hw c) fun i => by
    have hN : cfg0.N = 1024 := N_0
    have hc : (i 0).val < 2 := (i 0).isLt
    have h1 : (i 1).val < 64 := (i 1).isLt
    have h2 : (i 2).val < 128 := (i 2).isLt
    have ht : 512 * (i 0).val + 511 < cfg0.N := by rw [hN]; omega
    obtain ⟨i0, i1, i2⟩ := blockIdx ⟨512 * (i 0).val + 511, ht⟩
    refine ⟨⟨512 * (i 0).val + 511, ht⟩, (flush0_3 _).mpr (by show (512 * (i 0).val + 511) % 512 = 511; omega), ?_⟩
    show i ∈ ((View.whole main_v1).slice (win0_3.rect ⟨512 * (i 0).val + 511, ht⟩)).set
    rw [View.set_slice_whole, Rect.mem_set_unit]
    intro a
    match a with
    | ⟨0, _⟩ =>
      show win0_3.index ⟨512 * (i 0).val + 511, ht⟩ (0 : Fin 3) * 1 ≤ (i 0).val
        ∧ (i 0).val < win0_3.index ⟨512 * (i 0).val + 511, ht⟩ (0 : Fin 3) * 1 + 1
      rw [i0]; dsimp only; omega
    | ⟨1, _⟩ =>
      show win0_3.index ⟨512 * (i 0).val + 511, ht⟩ (1 : Fin 3) * 64 ≤ (i 1).val
        ∧ (i 1).val < win0_3.index ⟨512 * (i 0).val + 511, ht⟩ (1 : Fin 3) * 64 + 64
      rw [i1]; omega
    | ⟨2, _⟩ =>
      show win0_3.index ⟨512 * (i 0).val + 511, ht⟩ (2 : Fin 3) * 128 ≤ (i 2).val
        ∧ (i 2).val < win0_3.index ⟨512 * (i 0).val + 511, ht⟩ (2 : Fin 3) * 128 + 128
      rw [i2]; omega

/-! ## The host operations after the call -/

/-- The host operations after the call, as one function of the partial-output array: add the two cores' slabs entry by
    entry from zero, and lay the 64 by 128 result out as 8192 entries. -/
def tail (P : S2x64x128.Idx → EReal) : S8192.Idx → EReal :=
  shapeCast S8192 (Host.reduceAdd (F := Ideal) (P : Vec Ideal S2x64x128 .f32) (constant (F := Ideal) S_ .f32 0x00000000#32)
    reducesTo_S2x64x128_S64x128_d0 h_S_) shapeCasts_S64x128_S8192

/-- The result array after the whole program is that function of the partial-output array as the grid leaves it. -/
theorem tail_eq (c : Dev nD) :
    Pipeline.afterTail₀ cfgs (dats m) 0 (V0 m) [hostOps1] c main_v3 = tail ((dats m 0 c).arrAt 3 cfg0.N) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = (dats m 0 c).arrAt 3 cfg0.N := Pipeline.withArrays_arr spec0 launch0.win.arr_inj c _ _ 3
  rw [e]
  rfl

/-- Summing a 2 by 64 by 128 array over its first axis leaves a 64 by 128 array. -/
theorem redAxis : S2x64x128.Reduces [0] S64x128 := by decide

/-- Entry (h, l) of the sum over the first axis collects the entries (q, h, l). -/
theorem lift_eq (h : Fin 64) (l : Fin 128) (q : Fin 2) : (redAxis.lift (ix2 h l) q : S2x64x128.Idx) = ix3 q h l :=
  funext fun a => Fin.ext (by match a with | ⟨0, _⟩ => rfl | ⟨1, _⟩ => rfl | ⟨2, _⟩ => rfl)

/-- Entry k = 128 h + l of the result is the sum of the two cores' entries (h, l): k sits at row k / 128 = h and column
    k % 128 = l of the 64 by 128 layout, the sum over the first axis starts from zero, and 0 + (a + b) = a + b. -/
theorem tail_apply (P : S2x64x128.Idx → EReal) (k : Fin 8192) (h : Fin 64) (l : Fin 128) (hk : k.val = 128 * h.val + l.val) :
    tail P (ix1 k) = P (ix3 (0 : Fin 2) h l) + P (ix3 (1 : Fin 2) h l) := by
  unfold tail
  rw [shapeCast_apply _ shapeCasts_S64x128_S8192 (ix1 k) (ix2 h l) (by
    rw [Shape.rowMajor_val_two, Shape.rowMajor_val_one]
    show h.val * 128 + l.val = k.val
    omega)]
  show Ideal.hostReduceAdd reducesTo_S2x64x128_S64x128_d0 P (Ideal.ofBits .f32 0x00000000#32) (ix2 h l) = _
  rw [Ideal.hostReduceAdd_single reducesTo_S2x64x128_S64x128_d0 redAxis P _ (ix2 h l), Ideal.ofBits_zero_f32, zero_add]
  refine (Fin.sum_univ_two _).trans ?_
  rw [lift_eq, lift_eq]

/-- The result array after the whole program is the scatter-add's one function of the arguments: entry k is the two
    cores' partial sums at (k / 128, k % 128), added. -/
theorem result_eq
    (hx : ∀ (c : Dev nD) y, ∃ v : ℝ, (m ((c.tc : Thread nD τ).loc main_arg0) y : EReal) = (v : EReal))
    (hw : ∀ (c : Dev nD) y, ∃ v : ℝ, (m ((c.tc : Thread nD τ).loc main_arg1) y : EReal) = (v : EReal))
    (c : Dev nD) :
    Pipeline.afterTail₀ cfgs (dats m) 0 (V0 m) [hostOps1] c main_v3
      = spec (m ((c.tc : Thread nD τ).loc main_arg0)) (m ((c.tc : Thread nD τ).loc main_arg1))
          (m ((c.tc : Thread nD τ).loc main_arg2)) := by
  rw [tail_eq, final m hx hw c]
  funext k
  obtain ⟨k, rfl⟩ : ∃ k' : Fin 8192, k = ix1 k' := ⟨k 0, eq_ix1 k⟩
  have hk : k.val < 8192 := k.isLt
  rw [tail_apply _ k ⟨k.val / 128, by omega⟩ ⟨k.val % 128, by omega⟩
    (by show k.val = 128 * (k.val / 128) + k.val % 128; omega)]
  exact (spec_eq_partials _ _ _ k ⟨k.val / 128, by omega⟩ ⟨k.val % 128, by omega⟩
    (by show k.val = 128 * (k.val / 128) + k.val % 128; omega)).symm

/-! ## The run -/

/-- Every weakly fair execution of the kernel's program ends with its result at `spec` of the arguments, which end
    unchanged, when x and the weights hold real numbers. -/
theorem run
    (hx : ∀ (c : Dev nD) y, ∃ v : ℝ, (m ((c.tc : Thread nD τ).loc main_arg0) y : EReal) = (v : EReal))
    (hw : ∀ (c : Dev nD) y, ∃ v : ℝ, (m ((c.tc : Thread nD τ).loc main_arg1) y : EReal) = (v : EReal)) :
    θ_run defs (onTc (τ := τ) (main (F := Ideal))) ⟨m, fun _ => 0, ρ⟩ fun r => ∀ c : Dev nD,
      r.2.mem ((c.tc : Thread nD τ).loc main_v3)
          = spec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  -- the result and x are buffers the grid does not stage: they end as the host operations around it leave them;
  -- the weights and the targets are staged inputs: they end as the grid found them
  (θ_run defs _ _).mono (fun _ h c =>
    ⟨((h c).2 main_v3 (Pipeline.mem_restRefs_of main_v3 (by decide) (by decide))).trans (result_eq m hx hw c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Arr

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.RefValue.lean ====
/-
  The reference's result is the scatter-add's one function of the arguments, when no target is negative.

  The reference flattens the 8192 by 4096 targets and products to 33554432 = 8192 * 4096 entries (entry n is row
  n / 4096, column n % 4096), wraps a negative target by adding 8192, and accumulates product n into output entry
  target n, starting from zeros.  With no negative target the wrap never fires, so output entry p is the sum over the
  flat entries n whose target is p of x[n / 4096] * w[n / 4096, n % 4096]; cutting the flat range into 8192 stretches
  of 4096 gives the double sum over rows and columns that defines spec.  The scatter's reading and the cutting of the
  flat range are stated for any extents and only instantiated at these, so that nothing of that size is ever computed.
-/
import proofs.«407572_j78778290143897_2_alg».proof.Proof.Gen.ReferenceIdeal.Read
import proofs.«407572_j78778290143897_2_alg».proof.Proof.LibScatterSum
import proofs.«407572_j78778290143897_2_alg».proof.Proof.Spec
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read
open Cert.ScatterSpec

/-- The host's accumulating scatter with one start index per update row, read at an entry: the operand there plus the
    updates whose start index, read signed, is that entry (any extents: nothing is evaluated). -/
theorem host_flat {P N w : Nat} (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : FVec Ideal (⟨1, ![P]⟩ : Shape) .f32) (idx : IVec (⟨2, ![N, 1]⟩ : Shape) w)
    (upd : FVec Ideal (⟨1, ![N]⟩ : Shape) .f32) (p : Fin P) :
    (Host.scatterAdd d x idx upd (ix1 p) : EReal)
      = (x (ix1 p) : EReal) + ∑ n ∈ Finset.univ.filter (fun n : Fin N => (idx (ix2 n (0 : Fin 1))).toInt = (p.val : Int)),
            (upd (ix1 n) : EReal) :=
  ScatterSum.scatterAdd_flat_apply d huw hiw hsd hiv x idx upd p

/-- A sum over the flat range of A * B entries of a function of (n / B, n % B) is the double sum over rows and columns. -/
theorem sum_flat {M : Type*} [AddCommMonoid M] {N : ℕ} (A B : ℕ) (hN : N = A * B) (hB : 0 < B) (G : ℕ → ℕ → M) :
    ∑ n : Fin N, G (n.val / B) (n.val % B) = ∑ i : Fin A, ∑ j : Fin B, G i.val j.val := by
  subst hN
  rw [← Finset.sum_range (fun n => G (n / B) (n % B)), sum_range_mul, ← Finset.sum_range (fun i => ∑ j : Fin B, G i j.val)]
  refine Finset.sum_congr rfl fun a _ => ?_
  rw [← Finset.sum_range (fun j => G a j)]
  refine Finset.sum_congr rfl fun b hb => ?_
  have hb' : b < B := Finset.mem_range.mp hb
  rw [Nat.mul_add_div hB, Nat.div_eq_of_lt hb', Nat.add_zero, Nat.mul_add_mod, Nat.mod_eq_of_lt hb']

/-- A row number and a column number as a row and a column, wrapped into range (the numbers met are in range). -/
def rI (i : ℕ) : Fin 8192 := ⟨i % 8192, Nat.mod_lt _ (by decide)⟩
/-- The same for a column number. -/
def cI (j : ℕ) : Fin 4096 := ⟨j % 4096, Nat.mod_lt _ (by decide)⟩
theorem rI_val (i : Fin 8192) : rI i.val = i := Fin.ext (Nat.mod_eq_of_lt i.isLt)
theorem cI_val (j : Fin 4096) : cI j.val = j := Fin.ext (Nat.mod_eq_of_lt j.isLt)

/-- A word that is not negative when read signed does not compare below zero. -/
theorem cmpi_slt_zero_of_nonneg (a : BitVec 32) (h : 0 ≤ a.toInt) : IntOp.cmpi .slt a 0#32 = 0#1 := by
  have hb : a.slt 0#32 = false := by
    unfold BitVec.slt
    rw [BitVec.toInt_zero]
    exact decide_eq_false (by omega)
  show BitVec.ofBool (a.slt 0#32) = 0#1
  rw [hb]
  rfl

/-- With no negative target the wrap never fires: the flat target n is the target at row n / 4096, column n % 4096. -/
theorem targets_read (t : IVec S8192x4096 32) (hpos : ∀ y, 0 ≤ (t y).toInt) (n : Fin 33554432) :
    val_main_v11 (F := Ideal) t (ix2 n (0 : Fin 1)) = t (ix2 (rI (n.val / 4096)) (cI (n.val % 4096))) := by
  have hn := n.isLt
  have hidx : idx_main_v4 (idx_main_v11 (ix2 n (0 : Fin 1))) = ix2 (rI (n.val / 4096)) (cI (n.val % 4096)) := by
    funext a
    match a with
    | ⟨0, _⟩ => exact Fin.ext (show n.val / 4096 = (n.val / 4096) % 8192 from (Nat.mod_eq_of_lt (by omega)).symm)
    | ⟨1, _⟩ => exact Fin.ext (show n.val % 4096 = (n.val % 4096) % 4096 from (Nat.mod_eq_of_lt (by omega)).symm)
  rw [val_main_v11_apply, val_main_v10_apply, val_main_v7_apply, val_main_v6_apply, val_main_c_apply,
    val_main_v4_apply, hidx, cmpi_slt_zero_of_nonneg _ (hpos _), select_zero]

/-- The flat product n is x at row n / 4096 times w at row n / 4096, column n % 4096. -/
theorem products_read (x : FVec Ideal S8192 .f32) (w : FVec Ideal S8192x4096 .f32) (n : Fin 33554432) :
    (val_main_v5 (F := Ideal) x w (ix1 n) : EReal)
      = (x (ix1 (rI (n.val / 4096))) : EReal) * (w (ix2 (rI (n.val / 4096)) (cI (n.val % 4096))) : EReal) := by
  have hn := n.isLt
  have h1 : idx_main_v5 (ix1 n) = ix2 (rI (n.val / 4096)) (cI (n.val % 4096)) := by
    funext a
    match a with
    | ⟨0, _⟩ => exact Fin.ext (show n.val / 4096 = (n.val / 4096) % 8192 from (Nat.mod_eq_of_lt (by omega)).symm)
    | ⟨1, _⟩ => exact Fin.ext (show n.val % 4096 = (n.val % 4096) % 4096 from (Nat.mod_eq_of_lt (by omega)).symm)
  have h0 : idx_main_v0 (idx_main_v1 (ix2 (rI (n.val / 4096)) (cI (n.val % 4096)))) = ix1 (rI (n.val / 4096)) := by
    funext a
    match a with
    | ⟨0, _⟩ => rfl
  rw [val_main_v5_apply, val_main_v2_apply, val_main_v1_apply, val_main_v0_apply, h1, h0]
  rfl

/-- The reference's last stage, at the ideal instance, is `spec`. -/
theorem ref_eq_spec (x : FVec Ideal S8192 .f32) (w : FVec Ideal S8192x4096 .f32) (t : IVec S8192x4096 32)
    (hpos : ∀ y, 0 ≤ (t y).toInt) :
    val_main_v12 (F := Ideal) x w t = spec x w t := by
  funext k
  obtain ⟨p, rfl⟩ : ∃ p : Fin 8192, k = ix1 p := ⟨k 0, eq_ix1 k⟩
  refine (host_flat scatter_S8192_S33554432x1_S33554432_n_0_0_1 rfl rfl rfl rfl (val_main_v3 (F := Ideal))
    (val_main_v11 (F := Ideal) t) (val_main_v5 (F := Ideal) x w) p).trans ?_
  have h3 : (val_main_v3 (F := Ideal) (ix1 p) : EReal) = 0 := by
    rw [val_main_v3_apply, val_main_cst_apply]
    exact Ideal.ofBits_zero_f32
  rw [h3, zero_add, Finset.sum_filter]
  have hsum := sum_flat (N := 33554432) 8192 4096 (by norm_num) (by norm_num)
    (fun i j => if (t (ix2 (rI i) (cI j))).toInt = (p.val : ℤ) then (x (ix1 (rI i)) : EReal) * (w (ix2 (rI i) (cI j)) : EReal) else 0)
  refine ((Finset.sum_congr rfl fun n _ => ?_).trans hsum).trans ?_
  · rw [targets_read t hpos n, products_read x w n]
  · show _ = ∑ i : Fin 8192, rowTerm x w t p.val i
    refine Finset.sum_congr rfl fun i _ => ?_
    unfold rowTerm
    refine Finset.sum_congr rfl fun j _ => ?_
    rw [rI_val, cI_val]

end Cert.ReferenceIdeal.RefValue

end
-- ==== Proof.PreRead.lean ====
/-
  What the precondition says of the three argument arrays: every entry of x and of the weights is a real number, and no
  target is negative.
-/
import proofs.«407572_j78778290143897_2_alg».proof.Pre_finite_inputs
import proofs.«407572_j78778290143897_2_alg».proof.Proof.Gen.Pre_finite_inputs
import Idealize.ShloMosaic.PureOps.Ideal
import Idealize.ShloMosaic.Lib.ReduceAll
import Idealize.ShloMosaic.Lib.StableHlo.Predicate

noncomputable section

namespace Cert.PreRead

open Idealize.ShloMosaic Cert.Pre_finite_inputs

/-- The scalar shape has exactly one index. -/
local instance : Subsingleton S_.Idx := ⟨fun a b => funext fun d => d.elim0⟩

/-- The f32 pattern 0x7F800000 denotes +∞. -/
private theorem inf_bits : Ideal.ofBits .f32 0x7F800000#32 = (⊤ : EReal) := by simp [Ideal.ofBits, Ideal.ieee]

/-- An extended real whose absolute value max a (-a) lies strictly below +∞ is a real number: -∞ has absolute value +∞,
    and +∞ is its own. -/
private theorem real_of_abs_lt (a : EReal)
    (h : Ideal.cmp .olt (max a (-a)) (Ideal.ofBits .f32 0x7F800000#32) = 1#1) : ∃ v : ℝ, a = (v : EReal) := by
  rw [inf_bits] at h
  have hlt : max a (-a) < ⊤ := by
    simpa [Ideal.cmp, StableHlo.Predicate.ofBool_eq_one_iff] using h
  induction a using EReal.rec with
  | bot => simp at hlt
  | coe v => exact ⟨v, rfl⟩
  | top => simp at hlt

/-- A 32-bit word that compares signed-greater-or-equal to the zero word has a non-negative signed value. -/
private theorem nonneg_of_sge (a : BitVec 32) (h : IntOp.cmpi .sge a 0#32 = 1#1) : 0 ≤ a.toInt := by
  unfold IntOp.cmpi at h
  rw [StableHlo.Predicate.ofBool_eq_one_iff] at h
  simpa [BitVec.sle] using h

/-- The precondition all ones: x and the weights hold reals, the targets are not negative. -/
theorem pre_facts (x : FVec Ideal S8192 .f32) (w : FVec Ideal S8192x4096 .f32) (t : IVec S8192x4096 32)
    (h : Cert.Pre_finite_inputs.fn (F := Ideal) x w t = fun _ => 1#1) :
    (∀ y, ∃ v : ℝ, x y = (v : EReal)) ∧ (∀ y, ∃ v : ℝ, w y = (v : EReal)) ∧ (∀ y, 0 ≤ (t y).toInt) := by
  -- the one entry of the scalar result is the conjunction of the three reductions
  have e := congrFun h (fun a => a.elim0)
  dsimp only [Cert.Pre_finite_inputs.fn, andi] at e
  rw [IntOp.andi_eq_one, IntOp.andi_eq_one] at e
  obtain ⟨⟨hx, hw⟩, ht⟩ := e
  refine ⟨fun y => ?_, fun y => ?_, fun y => ?_⟩
  · -- each entry of the first mask is 1: |x y| < +∞
    have := Host.reduce_andi_all _ _ _ _ _ hx y
    exact real_of_abs_lt (x y) this
  · have := Host.reduce_andi_all _ _ _ _ _ hw y
    exact real_of_abs_lt (w y) this
  · have := Host.reduce_andi_all _ _ _ _ _ ht y
    exact nonneg_of_sge (t y) this

end Cert.PreRead

end
-- ==== Proof.lean ====
/-
  The scatter-add kernel against its reference, over the extended reals.

  The reference adds x[i] * w[i, j] into output entry t[i, j] (a negative target wrapped by 8192 first).  The kernel
  never scatters: it writes a target as 128 hi + lo, builds the one-hot matrices of the high and of the low parts, and
  gets the 64 by 128 layout of the output as a matrix product, a row of the inputs at a time, eight rows a grid point,
  each of its two cores summing half of the rows into its own block; the host adds the two blocks.  Both are the one
  function `spec`: entry k is the sum of x[i] * w[i, j] over the pairs whose target is k.  The kernel's residual
  term weighted - weighted vanishes because the inputs are real numbers, and a negative target, which the reference
  wraps and the kernel drops, is excluded by the precondition.
-/
import proofs.«407572_j78778290143897_2_alg».proof.Defs
import proofs.«407572_j78778290143897_2_alg».proof.Proof.Gen.Kernel
import proofs.«407572_j78778290143897_2_alg».proof.Proof.Gen.Kernel.Frame
import proofs.«407572_j78778290143897_2_alg».proof.Proof.Gen.KernelIdeal
import proofs.«407572_j78778290143897_2_alg».proof.Proof.Gen.KernelIdeal.Frame
import proofs.«407572_j78778290143897_2_alg».proof.Proof.Gen.ReferenceIdeal
import proofs.«407572_j78778290143897_2_alg».proof.Proof.Gen.ReferenceIdeal.Run
import proofs.«407572_j78778290143897_2_alg».proof.Proof.Gen.ReferenceIdeal.Read
import proofs.«407572_j78778290143897_2_alg».proof.Proof.Gen.Pre_finite_inputs
import proofs.«407572_j78778290143897_2_alg».proof.Proof.KernelArr
import proofs.«407572_j78778290143897_2_alg».proof.Proof.RefValue
import proofs.«407572_j78778290143897_2_alg».proof.Proof.PreRead
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The eight round trips through bf16 the ideal pass removed, one for each of a point's rows. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16⟩

/-- Both programs end at `spec` of the arguments. -/
theorem algebraic : Cert.algebraic_KernelIdeal_ReferenceIdeal := by
  intro m ρ m' ρ' hpre hagree
  have hf := fun c => Cert.PreRead.pre_facts _ _ _ (hpre c)
  refine ⟨_, Cert.KernelIdeal.Arr.run m ρ (fun c => (hf c).1) (fun c => (hf c).2.1), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v12_eq]
  exact Cert.ReferenceIdeal.RefValue.ref_eq_spec _ _ _ (hf c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
